-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x64 : Shape := ⟨2, ![512, 64]⟩
abbrev S64x512 : Shape := ⟨2, ![64, 512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S100000x512 .f32) (main_arg1 : IVec S1600000 32) (main_arg2 : IVec S1600000 32) (main_arg3 : FVec F S512x64 .f32) (main_arg4 : FVec F S64x512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg3
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64x512 .f32 := Host.absf main_arg4
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S100000x512 : Shape := ⟨2, ![100000, 512]⟩
abbrev S1600000 : Shape := ⟨1, ![1600000]⟩
abbrev S512x64 : Shape := ⟨2, ![512, 64]⟩
abbrev S64x512 : Shape := ⟨2, ![64, 512]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x512 : Shape := ⟨2, ![5000, 512]⟩
abbrev S5000x64 : Shape := ⟨2, ![5000, 64]⟩
abbrev S1600000x64 : Shape := ⟨2, ![1600000, 64]⟩
abbrev S20000x64 : Shape := ⟨2, ![20000, 64]⟩
abbrev S20000x1 : Shape := ⟨2, ![20000, 1]⟩
abbrev S5000x1 : Shape := ⟨2, ![5000, 1]⟩

abbrev nBuf : Space → Nat
  | .hbm => 89
  | .vmem => 18
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S512x64, .f32⟩
  | .hbm, ⟨4, _⟩ => ⟨S64x512, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000, .f32⟩
  | .hbm, ⟨55, _⟩ => ⟨S1600000x1, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000, .f32⟩
  | .hbm, ⟨81, _⟩ => ⟨S1600000x1, .f32⟩
  | .hbm, ⟨82, _⟩ => ⟨S1600000x64, .f32⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S100000x512, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S20000x64, .f32⟩
  | .local _ .vmem, ⟨6, _⟩ => ⟨S20000x64, .f32⟩
  | .local _ .vmem, ⟨7, _⟩ => ⟨S20000x1, .f32⟩
  | .local _ .vmem, ⟨8, _⟩ => ⟨S20000x1, .f32⟩
  | .local _ .vmem, ⟨9, _⟩ => ⟨S20000x64, .f32⟩
  | .local _ .vmem, ⟨10, _⟩ => ⟨S20000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S64x512, .f32⟩
  | .local _ .vmem, ⟨16, _⟩ => ⟨S5000x512, .f32⟩
  | .local _ .vmem, ⟨17, _⟩ => ⟨S5000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_cst_7 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_8 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_9 : Ref sig .tc := ⟨.hbm, 46, rfl⟩
abbrev main_v26 : Ref sig .tc := ⟨.hbm, 47, rfl⟩
abbrev main_v27 : Ref sig .tc := ⟨.hbm, 48, rfl⟩
abbrev main_c_10 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_12 : Ref sig .tc := ⟨.hbm, 63, rfl⟩
abbrev main_v40 : Ref sig .tc := ⟨.hbm, 64, rfl⟩
abbrev main_v41 : Ref sig .tc := ⟨.hbm, 65, rfl⟩
abbrev main_c_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_14 : Ref sig .tc := ⟨.hbm, 72, rfl⟩
abbrev main_v47 : Ref sig .tc := ⟨.hbm, 73, rfl⟩
abbrev main_v48 : Ref sig .tc := ⟨.hbm, 74, rfl⟩
abbrev main_c_15 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x512_S64x512_0_0 : ∀ a, (![0, 0] : Fin 2 → Nat) a + S64x512.size a ≤ S64x512.size a
  h_S64x512 : 0 < S64x512.numel
  scatter_S100000_S1600000x1_S1600000_n_0_0_1_wf : ScatterDims.WF S100000 S1600000x1 S1600000 [] [0] [0] 1
  dot_S5000x512_S512x64_S5000x64_1_0_0_1_n_n_wf : DotDims.WF S5000x512 S512x64 S5000x64 [1] [0] [0] [1] [] []
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S5000x64_S64x512_S5000x512_1_0_0_1_n_n_wf : DotDims.WF S5000x64 S64x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S100000x1.size a
  hwx1_1 : ∀ i : grid1.Coords, EltTy.bits .f32 = 32 ∨ (Rect.block (s := S100000x1) S20000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S100000x64.size a
  hwx1_2 : ∀ i : grid1.Coords, EltTy.bits .f32 = 32 ∨ (Rect.block (s := S100000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x512.size a ≤ S64x512.size a
  hwx2_2 : ∀ i : grid2.Coords, EltTy.bits .f32 = 32 ∨ (Rect.block (s := S64x512) S64x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x512.size a ≤ S100000x512.size a
  hwx2_3 : ∀ i : grid2.Coords, EltTy.bits .f32 = 32 ∨ (Rect.block (s := S100000x512) S5000x512.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x512_S5000x512_1_0_0_1_n_n : DotDims S5000x64 S64x512 S5000x512 where
  lhsContracting := [1]
  rhsContracting := [0]
  lhsNonContracting := [0]
  rhsNonContracting := [1]
  lhsBatch := []
  rhsBatch := []
  wf := dot_S5000x64_S64x512_S5000x512_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x64 : Shape := ⟨2, ![512, 64]⟩
abbrev S64x512 : Shape := ⟨2, ![64, 512]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S512x64, .f32⟩
  | .hbm, ⟨4, _⟩ => ⟨S64x512, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000, .f32⟩
  | .hbm, ⟨85, _⟩ => ⟨S1600000x1, .f32⟩
  | .hbm, ⟨86, _⟩ => ⟨S1600000x64, .f32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S100000x1, .f32⟩
  | .hbm, ⟨93, _⟩ => ⟨S100000x64, .f32⟩
  | .hbm, ⟨94, _⟩ => ⟨S100000x64, .f32⟩
  | .hbm, ⟨95, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_cst_7 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_8 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_9 : Ref sig .tc := ⟨.hbm, 45, rfl⟩
abbrev main_v25 : Ref sig .tc := ⟨.hbm, 46, rfl⟩
abbrev main_v26 : Ref sig .tc := ⟨.hbm, 47, rfl⟩
abbrev main_c_10 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call2_cst : Ref sig .tc := ⟨.hbm, 64, rfl⟩
abbrev main_call2_v0 : Ref sig .tc := ⟨.hbm, 65, rfl⟩
abbrev main_v41 : Ref sig .tc := ⟨.hbm, 66, rfl⟩
abbrev main_c_12 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_c_15 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S100000x64_S64x512_S100000x512_1_0_0_1_n_n_wf : DotDims.WF S100000x64 S64x512 S100000x512 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x512_S100000x512_1_0_0_1_n_n : DotDims S100000x64 S64x512 S100000x512 where
  lhsContracting := [1]
  rhsContracting := [0]
  lhsNonContracting := [0]
  rhsNonContracting := [1]
  lhsBatch := []
  rhsBatch := []
  wf := dot_S100000x64_S64x512_S100000x512_1_0_0_1_n_n_wf

class Facts : Prop extends Facts₀ where

variable [Facts]
-- ==== Proof.Spec.lean ====
/-
  The three dense stages of the two-layer graph convolution, each as ONE whole-array function read index by index over the
  extended reals. Rows are nodes (100000 of them), columns are features (512 in, 64 hidden, 512 out).

  * `xw`: the first layer's product, entry (r, j) the sum over the 512 input features k of x[r, k] · w[k, j].
  * `scaleRelu`: every row r of the aggregated hidden features scaled by that node's normalisation n[r, 0] (a column),
    then the positive part: max (a[r, j] · n[r, 0]) 0.
  * `scaleXw`: every row scaled by the node's normalisation, then the second layer's product over the 64 hidden features:
    entry (r, j) is the sum over k of (a[r, k] · n[r, 0]) · w[k, j].

  Both programs compute these: the kernel block of rows by block of rows, the reference on the whole arrays at once. A row
  of the result depends only on the same row of the row-indexed operands, which is why cutting the rows into blocks
  changes nothing.
-/
import Idealize.ShloMosaic.PureOps.Ideal
import Idealize.ShloMosaic.Lib.ValueIdx

noncomputable section

open scoped BigOperators

namespace Cert.Spec

open Idealize.ShloMosaic Idealize.ShloMosaic.ValueIdx

/-- Nodes by input features. -/
abbrev NF : Shape := ⟨2, ![100000, 512]⟩
/-- Input features by hidden features. -/
abbrev FH : Shape := ⟨2, ![512, 64]⟩
/-- Nodes by hidden features. -/
abbrev NH : Shape := ⟨2, ![100000, 64]⟩
/-- One entry per node, as a column. -/
abbrev N1 : Shape := ⟨2, ![100000, 1]⟩
/-- Hidden features by output features. -/
abbrev HF : Shape := ⟨2, ![64, 512]⟩

/-- The node (row) of an index into a node-indexed array. -/
abbrev node {b : Nat} (i : (⟨2, ![100000, b]⟩ : Shape).Idx) : Fin 100000 := ⟨(i 0).val, (i 0).isLt⟩
/-- The feature (column) of an index. -/
abbrev feat {a b : Nat} (i : (⟨2, ![a, b]⟩ : Shape).Idx) : Fin b := ⟨(i 1).val, (i 1).isLt⟩

/-- The first layer's product `x · w`. -/
def xw (x : NF.Idx → EReal) (w : FH.Idx → EReal) : NH.Idx → EReal :=
  fun i => ∑ k : Fin 512, x (ix2 (node i) k) * w (ix2 k (feat i))

/-- Rows scaled by the node's normalisation, then the positive part. -/
def scaleRelu (a : NH.Idx → EReal) (n : N1.Idx → EReal) : NH.Idx → EReal :=
  fun i => max (a i * n (ix2 (node i) (0 : Fin 1))) 0

/-- Rows scaled by the node's normalisation, then the second layer's product with `w`. -/
def scaleXw (a : NH.Idx → EReal) (n : N1.Idx → EReal) (w : HF.Idx → EReal) : NF.Idx → EReal :=
  fun i => ∑ k : Fin 64, (a (ix2 (node i) k) * n (ix2 (node i) (0 : Fin 1))) * w (ix2 k (feat i))

theorem xw_apply (x : NF.Idx → EReal) (w : FH.Idx → EReal) (r : Fin 100000) (j : Fin 64) :
    xw x w (ix2 r j) = ∑ k : Fin 512, x (ix2 r k) * w (ix2 k j) := rfl

theorem scaleRelu_apply (a : NH.Idx → EReal) (n : N1.Idx → EReal) (r : Fin 100000) (j : Fin 64) :
    scaleRelu a n (ix2 r j) = max (a (ix2 r j) * n (ix2 r (0 : Fin 1))) 0 := rfl

theorem scaleXw_apply (a : NH.Idx → EReal) (n : N1.Idx → EReal) (w : HF.Idx → EReal) (r : Fin 100000) (j : Fin 512) :
    scaleXw a n w (ix2 r j) = ∑ k : Fin 64, (a (ix2 r k) * n (ix2 r (0 : Fin 1))) * w (ix2 k j) := rfl

end Cert.Spec

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region0.lean ====
/-
  Region 0: the first layer's product, block of 5000 rows by block.
-/
import proofs.«169336_j25907242729573_1_alg».proof.Proof.Gen.KernelIdeal.Frame
import proofs.«169336_j25907242729573_1_alg».proof.Proof.Spec
import proofs.«169336_j25907242729573_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at one entry

The body multiplies a block of 5000 rows of the features (all 512 columns) by the whole weight matrix into a zero
accumulator. At the extended reals the two narrowings are the identity, so entry (p, q) of what it stores is the sum
over the 512 input features k of x[p, k] · w[k, q]. The product's dimension numbers contract the left operand's
columns with the right operand's rows; the four lemmas below read the operand indices coordinate by coordinate. -/

/-- The left operand is read in the output entry's row, -/
theorem lhs_row (i : S5000x64.Idx) (q : dot_S5000x512_S512x64_S5000x64_1_0_0_1_n_n.contr.Idx) :
    (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
/-- at the column the contraction index names; -/
theorem lhs_contr (i : S5000x64.Idx) (q : dot_S5000x512_S512x64_S5000x64_1_0_0_1_n_n.contr.Idx) :
    (dot_S5000x512_S512x64_S5000x64_1_0_0_1_n_n.lhsIdx i q 1).val = (q ⟨0, by decide⟩).val :=
  dot_S5000x512_S512x64_S5000x64_1_0_0_1_n_n.lhsIdx_val_of_single rfl i q
/-- the right operand in the row the contraction index names, -/
theorem rhs_contr (i : S5000x64.Idx) (q : dot_S5000x512_S512x64_S5000x64_1_0_0_1_n_n.contr.Idx) :
    (dot_S5000x512_S512x64_S5000x64_1_0_0_1_n_n.rhsIdx i q 0).val = (q ⟨0, by decide⟩).val :=
  dot_S5000x512_S512x64_S5000x64_1_0_0_1_n_n.rhsIdx_val_of_single rfl i q
/-- in the output entry's column. -/
theorem rhs_col (i : S5000x64.Idx) (q : dot_S5000x512_S512x64_S5000x64_1_0_0_1_n_n.contr.Idx) :
    (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- Entry (p, q) of what the body stores, from the two blocks it loaded: the row p of the first times the column q of
    the second. -/
theorem product_apply (x0 : Vec Ideal S5000x512 .f32) (x1 : Vec Ideal S512x64 .f32) (p : Fin 5000) (q : Fin 64) :
    k0_pay1 (F := Ideal) x0 x1 (ix2 p q) = ∑ k : Fin 512, x0 (ix2 p k) * x1 (ix2 k q) := by
  unfold k0_pay1
  refine (Ideal.matmul_constant_zero_apply dot_S5000x512_S512x64_S5000x64_1_0_0_1_n_n none _ _ (ix2 p q)).trans ?_
  rw [← Equiv.sum_comp (ValueIdx.contrEquiv1 dot_S5000x512_S512x64_S5000x64_1_0_0_1_n_n 512 rfl rfl).symm]
  refine Finset.sum_congr rfl fun k _ => ?_
  have hk := ValueIdx.contrEquiv1_symm_val dot_S5000x512_S512x64_S5000x64_1_0_0_1_n_n 512 rfl rfl k
  have el : dot_S5000x512_S512x64_S5000x64_1_0_0_1_n_n.lhsIdx (ix2 p q) ((ValueIdx.contrEquiv1 dot_S5000x512_S512x64_S5000x64_1_0_0_1_n_n 512 rfl rfl).symm k) = ix2 p k := funext fun a => Fin.ext (by
    match a with
    | ⟨0, _⟩ => exact lhs_row _ _
    | ⟨1, _⟩ => exact (lhs_contr _ _).trans hk)
  have er : dot_S5000x512_S512x64_S5000x64_1_0_0_1_n_n.rhsIdx (ix2 p q) ((ValueIdx.contrEquiv1 dot_S5000x512_S512x64_S5000x64_1_0_0_1_n_n 512 rfl rfl).symm k) = ix2 k q := funext fun a => Fin.ext (by
    match a with
    | ⟨0, _⟩ => exact (rhs_contr _ _).trans hk
    | ⟨1, _⟩ => exact rhs_col _ _)
  rw [truncf_apply, truncf_apply, el, er]

/-! ## The blocks

The grid is one axis of 20 points. Point t reads rows 5000·t … 5000·t + 4999 of the features (every column), the whole
weight matrix, and writes rows 5000·t … 5000·t + 4999 of the product. A block's coordinate in its array is the block's
index on that axis times the block's extent plus the coordinate inside the block. -/

theorem zero_offsets : (![0, 0] : Fin 2 → Nat) = fun _ => 0 := funext fun a => by fin_cases a <;> rfl

/-- The grid has 20 points. -/
theorem points : cfg0.N = 20 := N_0

/-- The block indices, decided over the grid: the features' and the product's row block is the point itself, every
    column block is block 0, and the weights' one block is block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry y of the features' block at point t is the features' array at row 5000·t + y₀, column y₁. -/
theorem rows_block (c : Dev nD) (t : Fin cfg0.N) (y : S5000x512.Idx) (i : S100000x512.Idx)
    (h0 : (i 0).val = 5000 * t.val + (y 0).val) (h1 : (i 1).val = (y 1).val) :
    (iblk0 V c 0 t : Vec Ideal S5000x512 .f32) y = (V c main_arg0 : S100000x512.Idx → EReal) i := by
  obtain ⟨e0, e1, -, -, -, -⟩ := block_indices t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 512 + 1 * (y 1).val = (i 1).val; omega

/-- The weights' one block is the weights' array. -/
theorem weights_block (c : Dev nD) (t : Fin cfg0.N) (y : S512x64.Idx) :
    (iblk0 V c 1 t : Vec Ideal S512x64 .f32) y = (V c main_arg3 : S512x64.Idx → EReal) y := by
  obtain ⟨-, -, e2, e3, -, -⟩ := block_indices t
  show V c main_arg3 (((cfg0.win 1).blk t).view.emb y) = V c main_arg3 y
  refine congrArg (V c main_arg3) (funext fun a => Fin.ext ?_)
  match a with
  | ⟨0, _⟩ => show win0_1.index t (0 : Fin 2) * 512 + 1 * (y 0).val = (y 0).val; omega
  | ⟨1, _⟩ => show win0_1.index t (1 : Fin 2) * 64 + 1 * (y 1).val = (y 1).val; omega

/-- Entry y of the product's block at point t sits in the product's array at row 5000·t + y₀, column y₁. -/
theorem product_block_emb (t : Fin cfg0.N) (y : S5000x64.Idx) (i : S100000x64.Idx)
    (h0 : (i 0).val = 5000 * t.val + (y 0).val) (h1 : (i 1).val = (y 1).val) :
    ((cfg0.win 2).blk t).view.emb y = i := by
  obtain ⟨-, -, -, -, e4, e5⟩ := block_indices t
  refine funext fun a => Fin.ext ?_
  match a with
  | ⟨0, _⟩ => show win0_2.index t (0 : Fin 2) * 5000 + 1 * (y 0).val = (i 0).val; omega
  | ⟨1, _⟩ => show win0_2.index t (1 : Fin 2) * 64 + 1 * (y 1).val = (i 1).val; omega

/-! ## What a point writes back -/

/-- Row 5000·t + p is a row of the array. -/
theorem row_lt (t : Fin cfg0.N) (p : Fin 5000) : 5000 * t.val + p.val < 100000 := by
  have ht : t.val < cfg0.N := t.isLt
  have hN : cfg0.N = 20 := points
  have hp : p.val < 5000 := p.isLt
  omega

/-- Entry (p, q) of what the body stores at point t is the first layer's product at row 5000·t + p, column q: a row of
    the product depends only on the same row of the features. -/
theorem block_product (c : Dev nD) (t : Fin cfg0.N) (p : Fin 5000) (q : Fin 64) :
    k0_pay1 (F := Ideal) (iblk0 V c 0 t) (iblk0 V c 1 t) (ix2 p q)
      = Cert.Spec.xw (V c main_arg0) (V c main_arg3) (ix2 (⟨5000 * t.val + p.val, row_lt t p⟩ : Fin 100000) q) := by
  refine (product_apply _ _ p q).trans ?_
  rw [Cert.Spec.xw_apply]
  refine Finset.sum_congr rfl fun k _ => ?_
  rw [rows_block V c t (ix2 p k) (ix2 (⟨5000 * t.val + p.val, row_lt t p⟩ : Fin 100000) k) rfl rfl, weights_block V c t (ix2 k q)]

/-- WHAT POINT t WRITES BACK is block t of the first layer's product of the arrays as the region finds them. -/
theorem flushed_eq (c : Dev nD) (t : Fin cfg0.N) :
    (dat0 (F := Ideal) V c).flushed 2 t
      = ((cfg0.win 2).blk t).view.read (Elt Ideal) (Cert.Spec.xw (V c main_arg0) (V c main_arg3)) := by
  show (cfg0.win 2).cut (grid0.coords t) ((dat0 (F := Ideal) V c).after 2 t) = _
  rw [after0_2]
  unfold out0_2
  rw [View.canon_unit_zero zero_offsets]
  simp only [View.ld_unit_zero (S := S5000x512) zero_offsets, View.ld_unit_zero (S := S512x64) zero_offsets]
  funext j
  obtain ⟨p, q, rfl⟩ : ∃ (p : Fin 5000) (q : Fin 64), j = ix2 p q := ⟨j 0, j 1, eq_ix2 j⟩
  refine (block_product V c t p q).trans ?_
  rw [View.read_apply]
  exact congrArg (Cert.Spec.xw (V c main_arg0) (V c main_arg3))
    (product_block_emb t (ix2 p q) (ix2 (⟨5000 * t.val + p.val, row_lt t p⟩ : Fin 100000) q) rfl rfl).symm

/-! ## The blocks tile the array -/

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v18).slice (win0_2.rect t)).set ↔ _
  rw [View.set_slice_whole, Rect.mem_set_unit]
  exact Iff.rfl

/-- Row r lies in the block of point r / 5000, which writes its block back like every point. -/
theorem cover (i : S100000x64.Idx) :
    ∃ t : Fin cfg0.N, (cfg0.win 2).flush t = true ∧ i ∈ ((cfg0.win 2).blk t).view.set := by
  have hN : cfg0.N = 20 := points
  have hi0 : (i 0).val < 100000 := (i 0).isLt
  have hi1 : (i 1).val < 64 := (i 1).isLt
  have ht : (i 0).val / 5000 < cfg0.N := by omega
  obtain ⟨-, -, -, -, e4, e5⟩ := block_indices ⟨(i 0).val / 5000, ht⟩
  refine ⟨⟨(i 0).val / 5000, ht⟩, flush0_2 _, ?_⟩
  rw [mem_blk]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4]; dsimp only; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; rw [e5]; omega

/-- The array the region leaves, whatever the buffers held when it was entered (`V`). -/
theorem arr (c : Dev nD) : (dat0 (F := Ideal) V c).arrAt 2 cfg0.N = Cert.Spec.xw (V c main_arg0) (V c main_arg3) := by
  exact (dat0 (F := Ideal) V c).arrAt_eq_of_cover 2 (Cert.Spec.xw (V c main_arg0) (V c main_arg3))
    (fun t _ => flushed_eq V c t) cover

end Cert.KernelIdeal.Region0

end
-- ==== Proof.Region1.lean ====
/-
  Region 1: rows scaled by the node's normalisation and the positive part, block of 20000 rows by block.
-/
import proofs.«169336_j25907242729573_1_alg».proof.Proof.Gen.KernelIdeal.Frame
import proofs.«169336_j25907242729573_1_alg».proof.Proof.Spec
import proofs.«169336_j25907242729573_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at one entry of a block -/

/-- Entry (p, q) of what the body stores: the block's entry times the column's entry of the same row, then the positive
    part. The two casts to the same shape change nothing, the column spread over the 64 lanes reads the row's one entry,
    and the splat of the zero word is 0 everywhere. -/
theorem payload_apply (x0 : Vec Ideal S20000x64 .f32) (x1 : Vec Ideal S20000x1 .f32) (p : Fin 20000) (q : Fin 64) :
    k1_pay1 (F := Ideal) x0 x1 (ix2 p q) = max (x0 (ix2 p q) * x1 (ix2 p (0 : Fin 1))) 0 := by
  unfold k1_pay1
  rw [maximumf_apply, mulf_apply, broadcast_apply, shapeCast_self, shapeCast_self,
    Cert.LibColumn.broadcastTo_a1_ab_apply, Ideal.ofBits_def, Ideal.ofBits_zero_f32]

/-! ## Where a block sits in its array -/

/-- The whole-buffer rectangle starts at offset zero on both axes. -/
theorem zero_offsets : (![0, 0] : Fin 2 → Nat) = fun _ => 0 := funext fun a => by fin_cases a <;> rfl

/-- The grid has five points. -/
theorem point_lt (t : Fin cfg1.N) : t.val < 5 := Nat.lt_of_lt_of_eq t.isLt (show cfg1.N = 5 from N_1)

/-- The three index maps, decided over the five points: at point `t` each window is on block `t` of the rows and on the
    one block of the columns. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Entry (p, q) of block `t` of the aggregated features is row 20000·t + p of the array. -/
theorem features_block_apply (c : Dev nD) (t : Fin cfg1.N) (p : Fin 20000) (q : Fin 64) (r : Fin 100000)
    (hr : r.val = t.val * 20000 + p.val) : iblk1 V c 0 t (ix2 p q) = V c main_v38 (ix2 r q) := by
  obtain ⟨e0, e1, -, -, -, -⟩ := block_index t
  show V c main_v38 (((cfg1.win 0).blk t).view.emb (ix2 p q)) = V c main_v38 (ix2 r q)
  refine congrArg _ ?_
  funext a; apply Fin.ext
  match a with
  | ⟨0, _⟩ => show win1_0.index t (0 : Fin 2) * 20000 + 1 * p.val = r.val; omega
  | ⟨1, _⟩ => show win1_0.index t (1 : Fin 2) * 64 + 1 * q.val = q.val; omega

/-- Entry (p, 0) of block `t` of the normalisation column is row 20000·t + p of the column. -/
theorem norm_block_apply (c : Dev nD) (t : Fin cfg1.N) (p : Fin 20000) (r : Fin 100000)
    (hr : r.val = t.val * 20000 + p.val) : iblk1 V c 1 t (ix2 p (0 : Fin 1)) = V c main_v17 (ix2 r (0 : Fin 1)) := by
  obtain ⟨-, -, e0, e1, -, -⟩ := block_index t
  show V c main_v17 (((cfg1.win 1).blk t).view.emb (ix2 p (0 : Fin 1))) = V c main_v17 (ix2 r (0 : Fin 1))
  refine congrArg _ ?_
  funext a; apply Fin.ext
  match a with
  | ⟨0, _⟩ => show win1_1.index t (0 : Fin 2) * 20000 + 1 * p.val = r.val; omega
  | ⟨1, _⟩ => show win1_1.index t (1 : Fin 2) * 1 + 1 * 0 = 0; omega

/-- Entry (p, q) of the output's block `t` sits at row 20000·t + p of the output array. -/
theorem out_block_emb (t : Fin cfg1.N) (p : Fin 20000) (q : Fin 64) (r : Fin 100000)
    (hr : r.val = t.val * 20000 + p.val) : ((cfg1.win 2).blk t).view.emb (ix2 p q) = ix2 r q := by
  obtain ⟨-, -, -, -, e0, e1⟩ := block_index t
  funext a; apply Fin.ext
  match a with
  | ⟨0, _⟩ => show win1_2.index t (0 : Fin 2) * 20000 + 1 * p.val = r.val; omega
  | ⟨1, _⟩ => show win1_2.index t (1 : Fin 2) * 64 + 1 * q.val = q.val; omega

/-! ## What a point writes back -/

/-- What point `t` writes back is block `t` of the scaled positive part of the arrays the region found. -/
theorem flushed_eq (c : Dev nD) (t : Fin cfg1.N) :
    (dat1 (F := Ideal) V c).flushed 2 t
      = ((cfg1.win 2).blk t).view.read (Elt Ideal) (Cert.Spec.scaleRelu (V c main_v38) (V c main_v17)) := by
  show (cfg1.win 2).cut (grid1.coords t) ((dat1 V c).after 2 t) = _
  rw [after1_2]
  unfold out1_2
  rw [View.canon_unit_zero zero_offsets]
  simp only [View.ld_unit_zero (S := S20000x64) zero_offsets, View.ld_unit_zero (S := S20000x1) zero_offsets]
  funext j
  obtain ⟨p, q, rfl⟩ : ∃ (p : Fin 20000) (q : Fin 64), j = ix2 p q := ⟨j 0, j 1, eq_ix2 j⟩
  have ht := point_lt t
  have hr : t.val * 20000 + p.val < 100000 := by have := p.isLt; omega
  show k1_pay1 (F := Ideal) (iblk1 V c 0 t) (iblk1 V c 1 t) (ix2 p q)
    = Cert.Spec.scaleRelu (V c main_v38) (V c main_v17) (((cfg1.win 2).blk t).view.emb (ix2 p q))
  refine (payload_apply (iblk1 V c 0 t) (iblk1 V c 1 t) p q).trans ?_
  rw [out_block_emb t p q ⟨t.val * 20000 + p.val, hr⟩ rfl, Cert.Spec.scaleRelu_apply,
    features_block_apply V c t p q ⟨t.val * 20000 + p.val, hr⟩ rfl,
    norm_block_apply V c t p ⟨t.val * 20000 + p.val, hr⟩ rfl]

/-! ## The blocks tile the array -/

/-- An index of the output array is in point `t`'s block iff each coordinate is in the block's range on its axis. -/
theorem mem_block (t : Fin cfg1.N) (i : S100000x64.Idx) :
    i ∈ ((cfg1.win 2).blk t).view.set ↔ ∀ a : Fin 2, win1_2.index t a * S20000x64.size a ≤ (i a).val
      ∧ (i a).val < win1_2.index t a * S20000x64.size a + S20000x64.size a := by
  show i ∈ ((View.whole main_v39).slice (win1_2.rect t)).set ↔ _
  rw [View.set_slice_whole, Rect.mem_set_unit]
  exact Iff.rfl

/-- Every entry of the output array is written back by some point: row `r` by point `r / 20000`, whose block holds the
    rows from 20000·(r / 20000) up to the next multiple of 20000 and all 64 columns. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 20000 :=
    ⟨⟨(i 0).val / 20000, Nat.lt_of_lt_of_eq (show (i 0).val / 20000 < 5 by omega) (show 5 = cfg1.N from N_1.symm)⟩, rfl⟩
  obtain ⟨-, -, -, -, e0, e1⟩ := block_index t
  refine ⟨t, flush1_2 t, ?_⟩
  rw [mem_block]
  intro a
  match a with
  | ⟨0, _⟩ =>
    show win1_2.index t (0 : Fin 2) * 20000 ≤ (i 0).val ∧ (i 0).val < win1_2.index t (0 : Fin 2) * 20000 + 20000
    omega
  | ⟨1, _⟩ =>
    show win1_2.index t (1 : Fin 2) * 64 ≤ (i 1).val ∧ (i 1).val < win1_2.index t (1 : Fin 2) * 64 + 64
    omega

/-! ## The array the region leaves -/

/-- The array the region leaves, whatever the buffers held when it was entered (`V`). -/
theorem arr (c : Dev nD) : (dat1 (F := Ideal) V c).arrAt 2 cfg1.N = Cert.Spec.scaleRelu (V c main_v38) (V c main_v17) :=
  (dat1 (F := Ideal) V c).arrAt_eq_of_cover 2 (Cert.Spec.scaleRelu (V c main_v38) (V c main_v17))
    (fun t _ => flushed_eq V c t) covered

end Cert.KernelIdeal.Region1

end
-- ==== Proof.Region2.lean ====
/-
  Region 2: rows scaled by the node's normalisation, then the second layer's product, block of 5000 rows by block.
-/
import proofs.«169336_j25907242729573_1_alg».proof.Proof.Gen.KernelIdeal.Frame
import proofs.«169336_j25907242729573_1_alg».proof.Proof.Spec
import proofs.«169336_j25907242729573_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The product over the hidden features, read at an entry

The block's product contracts the 64 hidden features: the left operand is read at (row of the entry, feature k), the
right operand at (feature k, column of the entry). -/

/-- The left operand's row is the entry's row. -/
theorem lhs_row (i : S5000x512.Idx) (q : dot_S5000x64_S64x512_S5000x512_1_0_0_1_n_n.contr.Idx) :
    (dot_S5000x64_S64x512_S5000x512_1_0_0_1_n_n.lhsIdx i q 0).val = (i 0).val := by
  unfold DotDims.lhsIdx
  rw [dif_neg (show ¬(0 : Fin S5000x64.rank) ∈ dot_S5000x64_S64x512_S5000x512_1_0_0_1_n_n.lhsBatch by decide), dif_pos (show (0 : Fin S5000x64.rank) ∈ dot_S5000x64_S64x512_S5000x512_1_0_0_1_n_n.lhsNonContracting by decide)]
  rfl
/-- The left operand's column is the contracted hidden feature. -/
theorem lhs_hidden (i : S5000x512.Idx) (q : dot_S5000x64_S64x512_S5000x512_1_0_0_1_n_n.contr.Idx) :
    (dot_S5000x64_S64x512_S5000x512_1_0_0_1_n_n.lhsIdx i q 1).val = (q ⟨0, by decide⟩).val :=
  dot_S5000x64_S64x512_S5000x512_1_0_0_1_n_n.lhsIdx_val_of_single rfl i q
/-- The right operand's row is the contracted hidden feature. -/
theorem rhs_hidden (i : S5000x512.Idx) (q : dot_S5000x64_S64x512_S5000x512_1_0_0_1_n_n.contr.Idx) :
    (dot_S5000x64_S64x512_S5000x512_1_0_0_1_n_n.rhsIdx i q 0).val = (q ⟨0, by decide⟩).val :=
  dot_S5000x64_S64x512_S5000x512_1_0_0_1_n_n.rhsIdx_val_of_single rfl i q
/-- The right operand's column is the entry's column. -/
theorem rhs_col (i : S5000x512.Idx) (q : dot_S5000x64_S64x512_S5000x512_1_0_0_1_n_n.contr.Idx) :
    (dot_S5000x64_S64x512_S5000x512_1_0_0_1_n_n.rhsIdx i q 1).val = (i 1).val := by
  unfold DotDims.rhsIdx
  rw [dif_neg (show ¬(1 : Fin S64x512.rank) ∈ dot_S5000x64_S64x512_S5000x512_1_0_0_1_n_n.rhsBatch by decide), dif_pos (show (1 : Fin S64x512.rank) ∈ dot_S5000x64_S64x512_S5000x512_1_0_0_1_n_n.rhsNonContracting by decide)]
  rfl

/-- What the body computes from its three blocks, at entry (p, q) of the block: the sum over the hidden features k of
    (a[p, k] · n[p, 0]) · w[k, q]. The two shape casts keep the shape, the column is spread over the 64 lanes, the
    narrowing of the formats is the identity on the extended reals, and the accumulator is zero. -/
theorem payload_apply (x0 : Vec Ideal S5000x64 .f32) (x1 : Vec Ideal S5000x1 .f32) (x2 : Vec Ideal S64x512 .f32)
    (p : Fin 5000) (q : Fin 512) :
    k2_pay1 (F := Ideal) x0 x1 x2 (ix2 p q) = ∑ k : Fin 64, (x0 (ix2 p k) * x1 (ix2 p (0 : Fin 1))) * x2 (ix2 k q) := by
  unfold k2_pay1
  refine (Ideal.matmul_constant_zero_apply dot_S5000x64_S64x512_S5000x512_1_0_0_1_n_n none _ _ (ix2 p q)).trans ?_
  rw [← Equiv.sum_comp (ValueIdx.contrEquiv1 dot_S5000x64_S64x512_S5000x512_1_0_0_1_n_n 64 rfl rfl).symm]
  refine Finset.sum_congr rfl fun k _ => ?_
  have hk := ValueIdx.contrEquiv1_symm_val dot_S5000x64_S64x512_S5000x512_1_0_0_1_n_n 64 rfl rfl k
  have el : dot_S5000x64_S64x512_S5000x512_1_0_0_1_n_n.lhsIdx (ix2 p q) ((ValueIdx.contrEquiv1 dot_S5000x64_S64x512_S5000x512_1_0_0_1_n_n 64 rfl rfl).symm k) = ix2 p k := funext fun a => Fin.ext (by
    match a with
    | ⟨0, _⟩ => exact lhs_row _ _
    | ⟨1, _⟩ => exact (lhs_hidden _ _).trans hk)
  have er : dot_S5000x64_S64x512_S5000x512_1_0_0_1_n_n.rhsIdx (ix2 p q) ((ValueIdx.contrEquiv1 dot_S5000x64_S64x512_S5000x512_1_0_0_1_n_n 64 rfl rfl).symm k) = ix2 k q := funext fun a => Fin.ext (by
    match a with
    | ⟨0, _⟩ => exact (rhs_hidden _ _).trans hk
    | ⟨1, _⟩ => exact rhs_col _ _)
  rw [el, er, truncf_apply, truncf_apply, mulf_apply, shapeCast_self, shapeCast_self, Cert.LibColumn.broadcastTo_a1_ab_apply]

variable (V : (c : Dev nD) → (b : Ref sig .tc) → Buf (Elt Ideal) ((c : Thread nD τ).loc b))

/-! ## The blocks

The grid has 20 points. Point t takes rows 5000·t … 5000·t + 4999 of the aggregated hidden features and of the
normalisation column, all of the second layer's weights, and writes rows 5000·t … 5000·t + 4999 of the result. -/

theorem zero_offsets : (![0, 0] : Fin 2 → Nat) = fun _ => 0 := funext fun a => by fin_cases a <;> rfl

/-- The block indices at a point, decided over the grid: the two row-indexed inputs move with the result's block of rows,
    the weights stay at their one block, nothing moves along the columns, and the result's block of rows is one of the 20. -/
theorem block_indices : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 19 :=
  (by decide +kernel : ∀ t : Fin grid2.N, _)

/-- Every block of 5000 rows of the result is some point's. -/
theorem block_onto : ∀ b : Fin 20, ∃ t : Fin cfg2.N, win2_3.index t = ![b.val, 0] :=
  (by decide +kernel : ∀ b : Fin 20, ∃ t : Fin grid2.N, win2_3.index t = ![b.val, 0])

/-- The block of the aggregated hidden features at point `t`, entry y, is the array's entry in row
    (block index) · 5000 + (row of y), same column. -/
theorem hidden_block (c : Dev nD) (t : Fin cfg2.N) (y : S5000x64.Idx) (i : S100000x64.Idx)
    (h0 : (i 0).val = win2_0.index t (0 : Fin 2) * 5000 + (y 0).val) (h1 : (i 1).val = win2_0.index t (1 : Fin 2) * 64 + (y 1).val) :
    (iblk2 V c 0 t : Vec Ideal S5000x64 .f32) y = (V c main_v59 : S100000x64.Idx → EReal) i := by
  show V c main_v59 (((cfg2.win 0).blk t).view.emb y) = V c main_v59 i
  refine congrArg (V c main_v59) (funext fun a => Fin.ext ?_)
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- The block of the normalisation column at point `t`, likewise. -/
theorem norm_block (c : Dev nD) (t : Fin cfg2.N) (y : S5000x1.Idx) (i : S100000x1.Idx)
    (h0 : (i 0).val = win2_1.index t (0 : Fin 2) * 5000 + (y 0).val) (h1 : (i 1).val = win2_1.index t (1 : Fin 2) * 1 + (y 1).val) :
    (iblk2 V c 1 t : Vec Ideal S5000x1 .f32) y = (V c main_v17 : S100000x1.Idx → EReal) i := by
  show V c main_v17 (((cfg2.win 1).blk t).view.emb y) = V c main_v17 i
  refine congrArg (V c main_v17) (funext fun a => Fin.ext ?_)
  match a with
  | ⟨0, _⟩ => show win2_1.index t (0 : Fin 2) * 5000 + 1 * (y 0).val = (i 0).val; omega
  | ⟨1, _⟩ => show win2_1.index t (1 : Fin 2) * 1 + 1 * (y 1).val = (i 1).val; omega

/-- The one block of the weights is the whole array. -/
theorem weight_block (c : Dev nD) (t : Fin cfg2.N) (y : S64x512.Idx) :
    (iblk2 V c 2 t : Vec Ideal S64x512 .f32) y = (V c main_arg4 : S64x512.Idx → EReal) y := by
  obtain ⟨-, -, -, -, e4, e5, -, -⟩ := block_indices t
  show V c main_arg4 (((cfg2.win 2).blk t).view.emb y) = V c main_arg4 y
  refine congrArg (V c main_arg4) (funext fun a => Fin.ext ?_)
  match a with
  | ⟨0, _⟩ => show win2_2.index t (0 : Fin 2) * 64 + 1 * (y 0).val = (y 0).val; omega
  | ⟨1, _⟩ => show win2_2.index t (1 : Fin 2) * 512 + 1 * (y 1).val = (y 1).val; omega

/-- One block's entry. If the three blocks the body loads are rows b·5000 … of `a`, rows b·5000 … of the column `n`, and
    all of `w`, then what the body computes at entry j of its block is the scaled product at row b·5000 + (row of j),
    same column: a row of the product depends only on the same row of the row-indexed operands. -/
theorem block_entry (x0 : Vec Ideal S5000x64 .f32) (x1 : Vec Ideal S5000x1 .f32) (x2 : Vec Ideal S64x512 .f32)
    (a : S100000x64.Idx → EReal) (n : S100000x1.Idx → EReal) (w : S64x512.Idx → EReal) (b : ℕ)
    (h0 : ∀ (y : S5000x64.Idx) (i : S100000x64.Idx), (i 0).val = b * 5000 + (y 0).val → (i 1).val = (y 1).val → x0 y = a i)
    (h1 : ∀ (y : S5000x1.Idx) (i : S100000x1.Idx), (i 0).val = b * 5000 + (y 0).val → (i 1).val = (y 1).val → x1 y = n i)
    (h2 : ∀ y : S64x512.Idx, x2 y = w y)
    (j : S5000x512.Idx) (i : S100000x512.Idx) (hi0 : (i 0).val = b * 5000 + (j 0).val) (hi1 : (i 1).val = (j 1).val) :
    k2_pay1 (F := Ideal) x0 x1 x2 j = Cert.Spec.scaleXw a n w i := by
  obtain ⟨p, q, rfl⟩ : ∃ (p : Fin 5000) (q : Fin 512), j = ix2 p q := ⟨j 0, j 1, eq_ix2 j⟩
  obtain ⟨r, q', rfl⟩ : ∃ (r : Fin 100000) (q' : Fin 512), i = ix2 r q' := ⟨i 0, i 1, eq_ix2 i⟩
  have hr : r.val = b * 5000 + p.val := hi0
  obtain rfl : q' = q := Fin.ext hi1
  rw [payload_apply, Cert.Spec.scaleXw_apply]
  refine Finset.sum_congr rfl fun k _ => ?_
  rw [h0 (ix2 p k) (ix2 r k) hr rfl, h1 (ix2 p (0 : Fin 1)) (ix2 r (0 : Fin 1)) hr rfl, h2]

/-- WHAT POINT `t` WRITES BACK is block `t` of the scaled product of the arrays as the region finds them. -/
theorem flushed_block (c : Dev nD) (t : Fin cfg2.N) :
    (dat2 (F := Ideal) V c).flushed 3 t
      = ((cfg2.win 3).blk t).view.read (Elt Ideal) (Cert.Spec.scaleXw (V c main_v59) (V c main_v17) (V c main_arg4)) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S5000x1) zero_offsets, View.ld_unit_zero (S := S64x512) zero_offsets]
  obtain ⟨e0, e1, e2, e3, e4, e5, e6, e7⟩ := block_indices t
  funext j
  refine block_entry (iblk2 V c 0 t) (iblk2 V c 1 t) (iblk2 V c 2 t) (V c main_v59) (V c main_v17) (V c main_arg4)
    (win2_3.index t (0 : Fin 2))
    (fun y i h0 h1 => hidden_block V c t y i (by omega) (by omega))
    (fun y i h0 h1 => norm_block V c t y i (by omega) (by omega))
    (weight_block V c t)
    ((cfg2.win 3).xinj (grid2.coords t) j) (((cfg2.win 3).blk t).view.emb j) ?_ ?_
  · show win2_3.index t (0 : Fin 2) * 5000 + 1 * (j 0).val = win2_3.index t (0 : Fin 2) * 5000 + (j 0).val
    omega
  · show win2_3.index t (1 : Fin 2) * 512 + 1 * (j 1).val = (j 1).val
    omega

/-- An index of the result is in point `t`'s block iff each coordinate is in the block's range on its axis. -/
theorem mem_block (t : Fin cfg2.N) (i : S100000x512.Idx) :
    i ∈ ((cfg2.win 3).blk t).view.set ↔ ∀ a : Fin 2, win2_3.index t a * S5000x512.size a ≤ (i a).val ∧ (i a).val < win2_3.index t a * S5000x512.size a + S5000x512.size a := by
  show i ∈ ((View.whole main_v60).slice (win2_3.rect t)).set ↔ _
  rw [View.set_slice_whole, Rect.mem_set_unit]
  exact Iff.rfl

/-- The 20 blocks of 5000 rows tile the result: row r is in the block of point r / 5000. -/
theorem cover (i : S100000x512.Idx) : ∃ t : Fin cfg2.N, (cfg2.win 3).flush t = true ∧ i ∈ ((cfg2.win 3).blk t).view.set := by
  have hi0 : (i 0).val < 100000 := (i 0).isLt
  have hi1 : (i 1).val < 512 := (i 1).isLt
  obtain ⟨t, ht⟩ := block_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 512 ≤ (i 1).val ∧ (i 1).val < win2_3.index t (1 : Fin 2) * 512 + 512; omega

/-- The array the region leaves, whatever the buffers held when it was entered (`V`). -/
theorem arr (c : Dev nD) : (dat2 (F := Ideal) V c).arrAt 3 cfg2.N = Cert.Spec.scaleXw (V c main_v59) (V c main_v17) (V c main_arg4) := by
  exact (dat2 (F := Ideal) V c).arrAt_eq_of_cover 3 (Cert.Spec.scaleXw (V c main_v59) (V c main_v17) (V c main_arg4))
    (fun t _ => flushed_block V c t) cover

end Cert.KernelIdeal.Region2

end
-- ==== Proof.KernelValue.lean ====
/-
  What the kernel's program leaves in its result buffer, as ONE function of the five argument arrays.

  Between the three dense stages the program runs plain host operations. Named here as functions of their inputs:
  * `normOf idx`: the degree normalisation of an index list — count how often each node occurs (a scatter-add of ones
    into zeros), replace a zero count by one, raise to the power −1/2;
  * `col idx`: that vector as a column, one entry per node;
  * `idxOf src`: the source indices with a negative one wrapped by adding the node count, as a column of start indices;
  * `aggWith h src dst ns`: gather the rows of `h` at the sources, scale each gathered row by the gathered source
    normalisation `ns`, and scatter-add the rows at the destinations into zeros; `agg h src dst` is that with
    `ns = normOf src`.
  The result is then `scaleXw (agg (scaleRelu (agg (xw x w₁) src dst) (col dst)) src dst) (col dst) w₂`: each segment
  boundary's contents are read back one boundary at a time — a host stretch by the operations' results, a dense stage by
  the array its region leaves.
-/
import proofs.«169336_j25907242729573_1_alg».proof.Proof.Gen.KernelIdeal.Frame
import proofs.«169336_j25907242729573_1_alg».proof.Proof.Spec
import proofs.«169336_j25907242729573_1_alg».proof.Proof.Region0
import proofs.«169336_j25907242729573_1_alg».proof.Proof.Region1
import proofs.«169336_j25907242729573_1_alg».proof.Proof.Region2
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

section Stages

variable {F : FTy → Type} [FloatOps F]

/-- How often each node occurs in an index list: ones scatter-added into zeros. -/
def degOf (idx : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- The degree normalisation: the count, a zero count replaced by one, to the power −1/2. -/
def normOf (idx : IVec S1600000 32) : FVec F S100000 .f32 :=
  Host.powf
    (select (cmpf .ogt (degOf (F := F) idx) (broadcastInDim S100000 ![] bcast_S_S100000 (constant S_ .f32 0x00000000#32)))
      (degOf (F := F) idx)
      (broadcastInDim S100000 ![] bcast_S_S100000 (id (constant S_ .f32 0x3F800000#32))))
    (broadcastInDim S100000 ![] bcast_S_S100000 (constant S_ .f32 0xBF000000#32))

/-- The normalisation as a column, one entry per node. -/
def col (idx : IVec S1600000 32) : FVec F S100000x1 .f32 :=
  broadcastInDim S100000x1 ![0] bcast_S100000_S100000x1_0 (normOf (F := F) idx)

/-- The source indices, a negative one wrapped by adding the node count, as a column of start indices. -/
def idxOf (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- Gather the rows of `h` at the sources, scale each by the gathered source normalisation `ns`, scatter-add at the
    destinations into zeros. -/
def aggWith (h : FVec F S100000x64 .f32) (src dst : IVec S1600000 32) (ns : FVec F S100000 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 h (idxOf src))
      (broadcastInDim S1600000x64 ![0, 1] bcast_S1600000x1_S1600000x64_0_1
        (broadcastInDim S1600000x1 ![0] bcast_S1600000_S1600000x1_0
          (Host.gather gather_S100000_S1600000x1_S1600000_n_0_n_n_0_1_1 ns (idxOf src)))))

/-- The aggregation with the source normalisation computed from the sources. -/
def agg (h : FVec F S100000x64 .f32) (src dst : IVec S1600000 32) : FVec F S100000x64 .f32 :=
  aggWith h src dst (normOf (F := F) src)

end Stages

/-- The whole program as one function of the argument arrays, over the extended reals. -/
def result (x : FVec Ideal S100000x512 .f32) (src dst : IVec S1600000 32) (w₁ : FVec Ideal S512x64 .f32)
    (w₂ : FVec Ideal S64x512 .f32) : FVec Ideal S100000x512 .f32 :=
  Cert.Spec.scaleXw (agg (F := Ideal) (Cert.Spec.scaleRelu (agg (F := Ideal) (Cert.Spec.xw x w₁) src dst) (col (F := Ideal) dst)) src dst)
    (col (F := Ideal) dst) w₂

section Walk

variable {F : FTy → Type} [FloatOps F]
variable (m : (ℓ : Loc nD τ sig) → Buf (Elt F) ℓ) (ρ : Dev nD → PrngReg) (c : Dev nD)

/-! ## Before the first dense stage: the arguments, the source normalisation, the destination column -/

theorem W5_arg0 : W5 m ρ c (Proc.devRef .tc main_arg0) = m ((c : Thread nD τ).loc main_arg0) := by
  dsimp only [W5, W4, W3, W2, W1, W0]; after_results
theorem W5_arg1 : W5 m ρ c (Proc.devRef .tc main_arg1) = m ((c : Thread nD τ).loc main_arg1) := by
  dsimp only [W5, W4, W3, W2, W1, W0]; after_results
theorem W5_arg2 : W5 m ρ c (Proc.devRef .tc main_arg2) = m ((c : Thread nD τ).loc main_arg2) := by
  dsimp only [W5, W4, W3, W2, W1, W0]; after_results
theorem W5_arg3 : W5 m ρ c (Proc.devRef .tc main_arg3) = m ((c : Thread nD τ).loc main_arg3) := by
  dsimp only [W5, W4, W3, W2, W1, W0]; after_results
theorem W5_arg4 : W5 m ρ c (Proc.devRef .tc main_arg4) = m ((c : Thread nD τ).loc main_arg4) := by
  dsimp only [W5, W4, W3, W2, W1, W0]; after_results

theorem W5_v11 : W5 m ρ c (Proc.devRef .tc main_v11) = normOf (F := F) (m ((c : Thread nD τ).loc main_arg1)) := by
  dsimp only [W5, W4, W3, W2, W1, W0]; after_results; rfl
theorem W5_v17 : W5 m ρ c (Proc.devRef .tc main_v17) = col (F := F) (m ((c : Thread nD τ).loc main_arg2)) := by
  dsimp only [W5, W4, W3, W2, W1, W0]; after_results; rfl

/-! ## Between the dense stages: the aggregation over the edges, read off the host operations -/

set_option maxHeartbeats 2000000 in
/-- The first aggregation, over whatever the first dense stage left. -/
theorem W7_v38 : W7 m ρ c (Proc.devRef .tc main_v38)
    = aggWith (F := F) (W6 m ρ c (Proc.devRef .tc main_v18)) (W6 m ρ c (Proc.devRef .tc main_arg1)) (W6 m ρ c (Proc.devRef .tc main_arg2))
        (W6 m ρ c (Proc.devRef .tc main_v11)) := by
  dsimp only [W7]; after_results_simp; rfl
theorem W7_v17 : W7 m ρ c (Proc.devRef .tc main_v17) = W6 m ρ c (Proc.devRef .tc main_v17) := by
  dsimp only [W7]; after_results
theorem W7_v11 : W7 m ρ c (Proc.devRef .tc main_v11) = W6 m ρ c (Proc.devRef .tc main_v11) := by
  dsimp only [W7]; after_results
theorem W7_arg1 : W7 m ρ c (Proc.devRef .tc main_arg1) = W6 m ρ c (Proc.devRef .tc main_arg1) := by
  dsimp only [W7]; after_results
theorem W7_arg2 : W7 m ρ c (Proc.devRef .tc main_arg2) = W6 m ρ c (Proc.devRef .tc main_arg2) := by
  dsimp only [W7]; after_results
theorem W7_arg4 : W7 m ρ c (Proc.devRef .tc main_arg4) = W6 m ρ c (Proc.devRef .tc main_arg4) := by
  dsimp only [W7]; after_results

set_option maxHeartbeats 2000000 in
/-- The second aggregation, over whatever the second dense stage left. -/
theorem W9_v59 : W9 m ρ c (Proc.devRef .tc main_v59)
    = aggWith (F := F) (W8 m ρ c (Proc.devRef .tc main_v39)) (W8 m ρ c (Proc.devRef .tc main_arg1)) (W8 m ρ c (Proc.devRef .tc main_arg2))
        (W8 m ρ c (Proc.devRef .tc main_v11)) := by
  dsimp only [W9]; after_results_simp; rfl
theorem W9_v17 : W9 m ρ c (Proc.devRef .tc main_v17) = W8 m ρ c (Proc.devRef .tc main_v17) := by
  dsimp only [W9]; after_results
theorem W9_arg4 : W9 m ρ c (Proc.devRef .tc main_arg4) = W8 m ρ c (Proc.devRef .tc main_arg4) := by
  dsimp only [W9]; after_results

end Walk

/-! ## The dense stages, and the chain put together (over the extended reals) -/

section Dense

variable (m : (ℓ : Loc nD τ sig) → Buf (Elt Ideal) ℓ) (ρ : Dev nD → PrngReg) (c : Dev nD)

/-- The first dense stage leaves `x · w₁` of the launch contents. -/
theorem W6_v18 : W6 m ρ c (Proc.devRef .tc main_v18)
    = Cert.Spec.xw (m ((c : Thread nD τ).loc main_arg0)) (m ((c : Thread nD τ).loc main_arg3)) := by
  refine (W6_arr m ρ c 2).trans ((Region0.arr (V5 m ρ) c).trans ?_)
  rw [show V5 m ρ c main_arg0 = m ((c : Thread nD τ).loc main_arg0) from W5_arg0 m ρ c,
    show V5 m ρ c main_arg3 = m ((c : Thread nD τ).loc main_arg3) from W5_arg3 m ρ c]

/-- The second dense stage scales what it finds by the destination column and takes the positive part. -/
theorem W8_v39 : W8 m ρ c (Proc.devRef .tc main_v39)
    = Cert.Spec.scaleRelu (W7 m ρ c (Proc.devRef .tc main_v38)) (W7 m ρ c (Proc.devRef .tc main_v17)) :=
  (W8_arr m ρ c 2).trans (Region1.arr (V7 m ρ) c)

/-- The third dense stage scales what it finds by the destination column and multiplies by `w₂`. -/
theorem W10_v60 : W10 m ρ c (Proc.devRef .tc main_v60)
    = Cert.Spec.scaleXw (W9 m ρ c (Proc.devRef .tc main_v59)) (W9 m ρ c (Proc.devRef .tc main_v17)) (W9 m ρ c (Proc.devRef .tc main_arg4)) :=
  (W10_arr m ρ c 3).trans (Region2.arr (V9 m ρ) c)

/-- THE RESULT BUFFER at the last boundary is `result` of the five argument arrays as launched. -/
theorem W10_result : W10 m ρ c (Proc.devRef .tc main_v60)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  have k6 : ∀ b : Ref sig .tc, (∀ w, Pipeline.arrRef spec0 w ≠ b) → W6 m ρ c (Proc.devRef .tc b) = W5 m ρ c (Proc.devRef .tc b) :=
    fun b hb => W6_of_ne m ρ c b hb
  have k8 : ∀ b : Ref sig .tc, (∀ w, Pipeline.arrRef spec1 w ≠ b) → W8 m ρ c (Proc.devRef .tc b) = W7 m ρ c (Proc.devRef .tc b) :=
    fun b hb => W8_of_ne m ρ c b hb
  -- the source normalisation, the destination column, the indices and the last weights, carried to every boundary
  have n6 : W6 m ρ c (Proc.devRef .tc main_v11) = normOf (F := Ideal) (m ((c : Thread nD τ).loc main_arg1)) :=
    (k6 main_v11 (by decide)).trans (W5_v11 m ρ c)
  have c6 : W6 m ρ c (Proc.devRef .tc main_v17) = col (F := Ideal) (m ((c : Thread nD τ).loc main_arg2)) :=
    (k6 main_v17 (by decide)).trans (W5_v17 m ρ c)
  have s6 : W6 m ρ c (Proc.devRef .tc main_arg1) = m ((c : Thread nD τ).loc main_arg1) := (k6 main_arg1 (by decide)).trans (W5_arg1 m ρ c)
  have d6 : W6 m ρ c (Proc.devRef .tc main_arg2) = m ((c : Thread nD τ).loc main_arg2) := (k6 main_arg2 (by decide)).trans (W5_arg2 m ρ c)
  have w6 : W6 m ρ c (Proc.devRef .tc main_arg4) = m ((c : Thread nD τ).loc main_arg4) := (k6 main_arg4 (by decide)).trans (W5_arg4 m ρ c)
  have n8 : W8 m ρ c (Proc.devRef .tc main_v11) = normOf (F := Ideal) (m ((c : Thread nD τ).loc main_arg1)) :=
    (k8 main_v11 (by decide)).trans ((W7_v11 m ρ c).trans n6)
  have c8 : W8 m ρ c (Proc.devRef .tc main_v17) = col (F := Ideal) (m ((c : Thread nD τ).loc main_arg2)) :=
    ((W8_arr m ρ c 1).trans (((dat1 (V7 m ρ) c).arrAt_in 1 rfl _).trans (A_eq1 (V7 m ρ) c 1))).trans ((W7_v17 m ρ c).trans c6)
  have s8 : W8 m ρ c (Proc.devRef .tc main_arg1) = m ((c : Thread nD τ).loc main_arg1) := (k8 main_arg1 (by decide)).trans ((W7_arg1 m ρ c).trans s6)
  have d8 : W8 m ρ c (Proc.devRef .tc main_arg2) = m ((c : Thread nD τ).loc main_arg2) := (k8 main_arg2 (by decide)).trans ((W7_arg2 m ρ c).trans d6)
  have w8 : W8 m ρ c (Proc.devRef .tc main_arg4) = m ((c : Thread nD τ).loc main_arg4) := (k8 main_arg4 (by decide)).trans ((W7_arg4 m ρ c).trans w6)
  rw [W10_v60, W9_v59, W9_v17, W9_arg4, W8_v39, W7_v38, W7_v17, W6_v18, n6, c6, s6, d6, n8, c8, s8, d8, w8]
  rfl

end Dense

end Cert.KernelIdeal.Chain

end
-- ==== Proof.RefStages.lean ====
/-
  The reference's three dense operations, each read as the whole-array function it computes over the extended reals:
  the first `dot_general` is `Spec.xw`; the positive part of the aggregate times the broadcast normalisation column is
  `Spec.scaleRelu`; the second `dot_general` of the aggregate times the broadcast column is `Spec.scaleXw`.
-/
import proofs.«169336_j25907242729573_1_alg».proof.Proof.RefRead
import proofs.«169336_j25907242729573_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Stages

open Idealize.ShloMosaic Idealize.ShloMosaic.ValueIdx
open Cert.ReferenceIdeal Cert.ReferenceIdeal.Gen

/-- An index into the left operand of the first product: the result's node and the summed feature. -/
theorem lidx_first (i : S100000x64.Idx) (k : Fin 512) :
    ReadP.lidx_main_v17 i k = ix2 (Cert.Spec.node i) k :=
  funext fun a => Fin.ext (by
    match a with
    | ⟨0, _⟩ => rfl
    | ⟨1, _⟩ => rfl)

/-- An index into the right operand of the first product: the summed feature and the result's feature. -/
theorem ridx_first (i : S100000x64.Idx) (k : Fin 512) :
    ReadP.ridx_main_v17 i k = ix2 k (Cert.Spec.feat i) :=
  funext fun a => Fin.ext (by
    match a with
    | ⟨0, _⟩ => rfl
    | ⟨1, _⟩ => rfl)

/-- The first layer's `dot_general` is the product `x · w`. -/
theorem dot_first (x0 : FVec Ideal S100000x512 .f32) (x3 : FVec Ideal S512x64 .f32) :
    Host.dotGeneral (F := Ideal) dot_S100000x512_S512x64_S100000x64_1_0_0_1_n_n none x0 x3 = Cert.Spec.xw x0 x3 := by
  funext i
  refine (ReadP.val_main_v17_apply x0 x3 i).trans ?_
  unfold Cert.Spec.xw
  refine Finset.sum_congr rfl fun k _ => ?_
  rw [lidx_first, ridx_first]

/-- The normalisation column spread over the features reads, at an index, the column's entry at the index's node:
    the node axis has extent 100000 on both sides and is kept, the column's second axis has extent 1 and reads entry 0. -/
theorem bcast_col_apply (n : FVec Ideal S100000x1 .f32) (i : S100000x64.Idx) :
    broadcastInDim S100000x64 ![0, 1] bcast_S100000x1_S100000x64_0_1 n i = n (ix2 (Cert.Spec.node i) (0 : Fin 1)) :=
  broadcastInDim_apply _ bcast_S100000x1_S100000x64_0_1 n i (ix2 (Cert.Spec.node i) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The scalar constant zero spread over the whole array reads 0 at every index. -/
theorem bcast_zero_apply (i : S100000x64.Idx) :
    broadcastInDim S100000x64 ![] bcast_S_S100000x64 (constant (F := Ideal) S_ .f32 0x00000000#32) i = (0 : EReal) := by
  generalize hy : constant (F := Ideal) S_ .f32 0x00000000#32 = y
  refine (broadcastInDim_apply _ bcast_S_S100000x64 y i (fun a => a.elim0) (fun a => a.elim0)).trans ?_
  rw [← hy, constant_apply]
  exact Ideal.ofBits_zero_f32

/-- The positive part of the aggregate times the normalisation column spread over the features. -/
theorem relu_scaled (a : FVec Ideal S100000x64 .f32) (n : FVec Ideal S100000x1 .f32) :
    maximumf (F := Ideal) (mulf a (broadcastInDim S100000x64 ![0, 1] bcast_S100000x1_S100000x64_0_1 n))
        (broadcastInDim S100000x64 ![] bcast_S_S100000x64 (constant (F := Ideal) S_ .f32 0x00000000#32))
      = Cert.Spec.scaleRelu a n := by
  funext i
  rw [maximumf_apply, mulf_apply, bcast_col_apply, bcast_zero_apply]
  rfl

/-- A `dot_general` contracting the 64 hidden features, read at an index for an arbitrary left operand: the sum over the
    hidden feature `k` of the left operand at (the result's node, `k`) times the right at (`k`, the result's feature). -/
theorem dot_second_apply (y : FVec Ideal S100000x64 .f32) (w : FVec Ideal S64x512 .f32) (i : S100000x512.Idx) :
    Host.dotGeneral (F := Ideal) dot_S100000x64_S64x512_S100000x512_1_0_0_1_n_n none y w i
      = ∑ k : Fin 64, y (ix2 (Cert.Spec.node i) k) * w (ix2 k (Cert.Spec.feat i)) := by
  simp only [Host.dotGeneral]
  rw [Ideal.dotGeneral_apply, ← Equiv.sum_comp (ValueIdx.contrEquiv1 dot_S100000x64_S64x512_S100000x512_1_0_0_1_n_n 64 rfl rfl).symm]
  refine Finset.sum_congr rfl fun k _ => ?_
  have hk := ValueIdx.contrEquiv1_symm_val dot_S100000x64_S64x512_S100000x512_1_0_0_1_n_n 64 rfl rfl k
  have el : dot_S100000x64_S64x512_S100000x512_1_0_0_1_n_n.lhsIdx i ((ValueIdx.contrEquiv1 dot_S100000x64_S64x512_S100000x512_1_0_0_1_n_n 64 rfl rfl).symm k) = ix2 (Cert.Spec.node i) k := funext fun a => Fin.ext (by
    match a with
    | ⟨0, _⟩ => exact ReadP.lhs_main_v65_0 _ _
    | ⟨1, _⟩ => exact (ReadP.lhs_main_v65_1 _ _).trans hk)
  have er : dot_S100000x64_S64x512_S100000x512_1_0_0_1_n_n.rhsIdx i ((ValueIdx.contrEquiv1 dot_S100000x64_S64x512_S100000x512_1_0_0_1_n_n 64 rfl rfl).symm k) = ix2 k (Cert.Spec.feat i) := funext fun a => Fin.ext (by
    match a with
    | ⟨0, _⟩ => exact (ReadP.rhs_main_v65_0 _ _).trans hk
    | ⟨1, _⟩ => exact ReadP.rhs_main_v65_1 _ _)
  rw [el, er]

/-- The second layer's `dot_general` of the aggregate times the normalisation column spread over the features. -/
theorem dot_scaled (a : FVec Ideal S100000x64 .f32) (n : FVec Ideal S100000x1 .f32)
    (w : FVec Ideal S64x512 .f32) :
    Host.dotGeneral (F := Ideal) dot_S100000x64_S64x512_S100000x512_1_0_0_1_n_n none
        (mulf a (broadcastInDim S100000x64 ![0, 1] bcast_S100000x1_S100000x64_0_1 n)) w
      = Cert.Spec.scaleXw a n w := by
  funext i
  rw [dot_second_apply]
  unfold Cert.Spec.scaleXw
  refine Finset.sum_congr rfl fun k _ => ?_
  rw [mulf_apply, bcast_col_apply]

end Cert.ReferenceIdeal.Stages

end
-- ==== Proof.Bridge.lean ====
/-
  The reference computes the same function of the five argument arrays as the kernel's program.

  The two programs run the same host operations between their dense stages — the degree normalisation, the wrapped source
  indices, the gather, the scaling, the scatter-add — each spelt over its own program's tables of dimension numbers. Those
  chains are identified here once, for any float family, with the value they are applied to left abstract; the three
  dense stages are the whole-array functions of `Spec` on both sides. So the reference's result, stage by stage, is
  `scaleXw (agg (scaleRelu (agg (xw x w₁) src dst) (col dst)) src dst) (col dst) w₂`: the kernel's.
-/
import proofs.«169336_j25907242729573_1_alg».proof.Proof.RefRead
import proofs.«169336_j25907242729573_1_alg».proof.Proof.RefStages
import proofs.«169336_j25907242729573_1_alg».proof.Proof.KernelValue

noncomputable section

namespace Cert.Bridge

open Idealize.ShloMosaic
open Cert.ReferenceIdeal.ReadP
open Cert.KernelIdeal.Chain (normOf col idxOf aggWith agg result)

section Chains

variable {F : FTy → Type} [FloatOps F]

/-- The reference's source normalisation is the kernel's. -/
theorem norm_src (x1 : IVec Cert.KernelIdeal.S1600000 32) : val_main_v11 (F := F) x1 = normOf (F := F) x1 := rfl

/-- The reference's destination normalisation is the same function, of the destinations. -/
theorem norm_dst (x2 : IVec Cert.KernelIdeal.S1600000 32) : val_main_v16 (F := F) x2 = normOf (F := F) x2 := rfl

/-- The destination column before the positive part. -/
theorem col_first (x2 : IVec Cert.KernelIdeal.S1600000 32) : val_main_v38 (F := F) x2 = col (F := F) x2 := by
  unfold val_main_v38 col; rw [norm_dst]

/-- The destination column before the last product. -/
theorem col_second (x2 : IVec Cert.KernelIdeal.S1600000 32) : val_main_v62 (F := F) x2 = col (F := F) x2 := by
  unfold val_main_v62 col; rw [norm_dst]

/-- The first aggregation, of any value `h`: gather at the wrapped sources, scale by the gathered source normalisation,
    scatter-add at the destinations. -/
theorem agg_first (h : FVec F Cert.KernelIdeal.S100000x64 .f32) (x1 x2 : IVec Cert.KernelIdeal.S1600000 32) :
    Host.scatterAdd Cert.ReferenceIdeal.scatter_S100000x64_S1600000x1_S1600000x64_1_0_0_1 (val_main_v35 (F := F)) (val_main_v36 (F := F) x2)
        (mulf (Host.gather Cert.ReferenceIdeal.gather_S100000x64_S1600000x1_S1600000x64_1_0_n_n_0_1_164 h (val_main_v23 (F := F) x1))
          (val_main_v33 (F := F) x1))
      = agg (F := F) h x1 x2 := by
  unfold val_main_v33 val_main_v32 val_main_v31
  rw [norm_src]
  rfl

/-- The second aggregation: the same operations again. -/
theorem agg_second (h : FVec F Cert.KernelIdeal.S100000x64 .f32) (x1 x2 : IVec Cert.KernelIdeal.S1600000 32) :
    Host.scatterAdd Cert.ReferenceIdeal.scatter_S100000x64_S1600000x1_S1600000x64_1_0_0_1 (val_main_v59 (F := F)) (val_main_v60 (F := F) x2)
        (mulf (Host.gather Cert.ReferenceIdeal.gather_S100000x64_S1600000x1_S1600000x64_1_0_n_n_0_1_164 h (val_main_v47 (F := F) x1))
          (val_main_v57 (F := F) x1))
      = agg (F := F) h x1 x2 := by
  unfold val_main_v57 val_main_v56 val_main_v55
  rw [norm_src]
  rfl

end Chains

/-- THE REFERENCE'S RESULT, over the extended reals, is the kernel's function of the arguments. -/
theorem ref_result (x0 : FVec Ideal Cert.KernelIdeal.S100000x512 .f32) (x1 x2 : IVec Cert.KernelIdeal.S1600000 32)
    (x3 : FVec Ideal Cert.KernelIdeal.S512x64 .f32) (x4 : FVec Ideal Cert.KernelIdeal.S64x512 .f32) :
    val_main_v65 (F := Ideal) x0 x1 x2 x3 x4 = result x0 x1 x2 x3 x4 := by
  have h37 : val_main_v37 (F := Ideal) x0 x1 x2 x3 = agg (F := Ideal) (Cert.Spec.xw x0 x3) x1 x2 := by
    unfold val_main_v37 val_main_v34 val_main_v24 val_main_v17
    rw [Cert.ReferenceIdeal.Stages.dot_first]
    exact agg_first _ x1 x2
  have h41 : val_main_v41 (F := Ideal) x0 x1 x2 x3
      = Cert.Spec.scaleRelu (agg (F := Ideal) (Cert.Spec.xw x0 x3) x1 x2) (col (F := Ideal) x2) := by
    unfold val_main_v41 val_main_v40 val_main_v39 val_main_call2_v0 val_main_call2_cst
    rw [Cert.ReferenceIdeal.Stages.relu_scaled, col_first, h37]
  have h61 : val_main_v61 (F := Ideal) x0 x1 x2 x3
      = agg (F := Ideal) (Cert.Spec.scaleRelu (agg (F := Ideal) (Cert.Spec.xw x0 x3) x1 x2) (col (F := Ideal) x2)) x1 x2 := by
    unfold val_main_v61 val_main_v58 val_main_v48
    rw [h41]
    exact agg_second _ x1 x2
  unfold val_main_v65 val_main_v64 val_main_v63
  rw [Cert.ReferenceIdeal.Stages.dot_scaled, col_second, h61]
  rfl

end Cert.Bridge

end
-- ==== Proof.lean ====
/-
  A two-layer graph convolution auto-encoder over 100000 nodes and 1600000 edges: features 512 → 64 → 512, symmetric degree
  normalisation, no bias. The kernel's program runs its three dense stages — the first layer's product `x · w₁`, the
  destination scaling with the positive part, the destination scaling fused with the second layer's product — as row-tiled
  kernels, 5000 or 20000 rows at a time with bf16 matrix operands, and leaves the edge gathers and scatter-adds to the same
  host operations the reference uses.

  Over the extended reals a change of float format is the identity and a matrix product into a zero accumulator is the plain
  sum over the contracted axis, so each tiled stage computes, row by row, exactly the reference's whole-array operation
  (a row of the result reads only the same row of the row-indexed operands, so the tiling is invisible), and the two
  programs are one function of the five arguments: `Chain.result`. No law beyond that is used — no distributivity, no
  cancellation — so the precondition that the float inputs are finite is never opened.

  The frames of the two kernel programs are the generated ones; the reference's frame is its run with the result dropped;
  the idealization rewrote nothing, so `preserves` is `True`.
-/
import proofs.«169336_j25907242729573_1_alg».proof.Defs
import proofs.«169336_j25907242729573_1_alg».proof.Proof.Gen.Kernel
import proofs.«169336_j25907242729573_1_alg».proof.Proof.Gen.Kernel.Skeleton
import proofs.«169336_j25907242729573_1_alg».proof.Proof.Gen.Kernel.Launch
import proofs.«169336_j25907242729573_1_alg».proof.Proof.Gen.Kernel.Points
import proofs.«169336_j25907242729573_1_alg».proof.Proof.Gen.Kernel.Frame
import proofs.«169336_j25907242729573_1_alg».proof.Proof.Gen.KernelIdeal
import proofs.«169336_j25907242729573_1_alg».proof.Proof.Gen.KernelIdeal.Skeleton
import proofs.«169336_j25907242729573_1_alg».proof.Proof.Gen.KernelIdeal.Launch
import proofs.«169336_j25907242729573_1_alg».proof.Proof.Gen.KernelIdeal.Points
import proofs.«169336_j25907242729573_1_alg».proof.Proof.Gen.KernelIdeal.Frame
import proofs.«169336_j25907242729573_1_alg».proof.Proof.Gen.ReferenceIdeal
import proofs.«169336_j25907242729573_1_alg».proof.Proof.Gen.Pre_finite_inputs
import proofs.«169336_j25907242729573_1_alg».proof.Proof.RefRun
import proofs.«169336_j25907242729573_1_alg».proof.Proof.RefRead
import proofs.«169336_j25907242729573_1_alg».proof.Proof.KernelRun
import proofs.«169336_j25907242729573_1_alg».proof.Proof.KernelValue
import proofs.«169336_j25907242729573_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with `Chain.result` of the arguments in their result buffer: the kernel's by reading its last
    segment boundary back to the launch memory, the reference's stage by stage. -/
theorem algebraic : Cert.algebraic_KernelIdeal_ReferenceIdeal := by
  intro m ρ m' ρ' _ hagree
  refine ⟨fun c => Cert.KernelIdeal.Chain.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.W10_result m ρ c), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v65_eq, (hagree c).1, (hagree c).2.1, (hagree c).2.2.1, (hagree c).2.2.2.1,
      (hagree c).2.2.2.2]
    exact Cert.Bridge.ref_result _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
